-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S1024x4096 .f32) (main_arg3 : FVec F S4096 .f32) (main_arg4 : FVec F S1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S8192x1024 : Shape := ⟨2, ![8192, 1024]⟩
abbrev S1x1024 : Shape := ⟨2, ![1, 1024]⟩
abbrev S1x4096 : Shape := ⟨2, ![1, 4096]⟩
abbrev S8192x1 : Shape := ⟨2, ![8192, 1]⟩
abbrev S8192x4096 : Shape := ⟨2, ![8192, 4096]⟩
abbrev S4x2048 : Shape := ⟨2, ![4, 2048]⟩
abbrev S4x2048x4096 : Shape := ⟨3, ![4, 2048, 4096]⟩
abbrev S256x1024 : Shape := ⟨2, ![256, 1024]⟩
abbrev S1024x1024 : Shape := ⟨2, ![1024, 1024]⟩
abbrev S256x1 : Shape := ⟨2, ![256, 1]⟩
abbrev S256 : Shape := ⟨1, ![256]⟩

abbrev nBuf : Space → Nat
  | .hbm => 19
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x4096, .f32⟩
  | .hbm, ⟨3, _⟩ => ⟨S4096, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S8192x1024, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S4x2048x1024, .f32⟩
  | .hbm, ⟨16, _⟩ => ⟨S4x2048, .f32⟩
  | .hbm, ⟨17, _⟩ => ⟨S4x2048, .f32⟩
  | .hbm, ⟨18, _⟩ => ⟨S4x2048x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1024, .f32⟩
  | .local _ .vmem, ⟨17, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5_0 : Ref sig .tc := ⟨.hbm, 11, rfl⟩
abbrev main_call0_v5_1 : Ref sig .tc := ⟨.hbm, 12, rfl⟩
abbrev main_call0_v5_2 : Ref sig .tc := ⟨.hbm, 13, rfl⟩
abbrev main_call0_v5_3 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  shapeCasts_S8192x1024_S4x2048x1024 : S8192x1024.ShapeCasts S4x2048x1024
  shapeCasts_S8192x1_S4x2048 : S8192x1.ShapeCasts S4x2048
  shapeCasts_S8192x4096_S4x2048x4096 : S8192x4096.ShapeCasts S4x2048x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S256x1_S256x1_0_0 : ∀ a, (![0, 0] : Fin 2 → Nat) a + S256x1.size a ≤ S256x1.size a
  h_S256x1 : 0 < S256x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .f32 = 32 ∨ (Rect.block (s := S1024x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S8192x1.size a
  hwx0_8 : ∀ i : grid0.Coords, EltTy.bits .f32 = 32 ∨ (Rect.block (s := S8192x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x4096.size a
  hwx0_9 : ∀ i : grid0.Coords, EltTy.bits .f32 = 32 ∨ (Rect.block (s := S8192x4096) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5_1) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v5_2) S256x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v5_3) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x4096, .f32⟩
  | .hbm, ⟨3, _⟩ => ⟨S4096, .f32⟩
  | .hbm, ⟨4, _⟩ => ⟨S1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x1024_S1024x4096_S4x2048x4096_2_0_01_1_n_n_wf : DotDims.WF S4x2048x1024 S1024x4096 S4x2048x4096 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf

class Facts : Prop extends Facts₀ where

variable [Facts]
-- ==== Proof.RowNorm.lean ====
/-
  The mathematics both programs compute, over the extended reals, one row at a time.

  A row is the 1024 sums a n = x1 n + x2 n of the two inputs. Its mean is (∑ a n) / 1024, its centred entries
  a n − mean, its reciprocal standard deviation rsqrt((∑ (a n − mean)²) / 1024 + ε), its normalised entries
  (a n − mean) · rstd · γ n + β n, and one output entry is the inner product of the normalised row with a column
  of the weight matrix plus the bias. The divisor 1024 and ε stay the f32 words both programs print; no law of the
  extended reals beyond 0 + s = s is used anywhere, so no input needs to be finite.

  The four results are these row functions read at the rows of the [4, 2048, 1024] inputs.
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx

/-- The row length as both programs write it: the f32 word of 1024. -/
abbrev len : EReal := Ideal.ofBits .f32 0x44800000#32
/-- The variance offset as both programs write it: the f32 word nearest 1e-5. -/
abbrev eps : EReal := Ideal.ofBits .f32 0x3727C5AC#32

/-- The mean of a row. -/
def mean (a : Fin 1024 → EReal) : EReal := Ideal.div (∑ n : Fin 1024, a n) len
/-- A row's entry less the row's mean. -/
def cen (a : Fin 1024 → EReal) (n : Fin 1024) : EReal := a n - mean a
/-- The reciprocal standard deviation of a row: rsqrt of the mean square of the centred entries plus ε. -/
def rstd (a : Fin 1024 → EReal) : EReal :=
  Ideal.rsqrt (Ideal.div (∑ n : Fin 1024, cen a n * cen a n) len + eps)
/-- The normalised row, scaled by γ and shifted by β. -/
def norm (a g be : Fin 1024 → EReal) (n : Fin 1024) : EReal := cen a n * rstd a * g n + be n
/-- One output entry: the normalised row against one weight column, plus that column's bias. -/
def proj (a g be w : Fin 1024 → EReal) (bd : EReal) : EReal := (∑ k : Fin 1024, norm a g be k * w k) + bd

/-- Row (b, m) of the sum of the two inputs. -/
def row (x1 x2 : (⟨3, ![4, 2048, 1024]⟩ : Shape).Idx → EReal) (b : Fin 4) (m : Fin 2048) : Fin 1024 → EReal :=
  fun n => x1 (ix3 b m n) + x2 (ix3 b m n)

/-- First result: the sum of the two inputs. -/
def outAdd (x1 x2 : (⟨3, ![4, 2048, 1024]⟩ : Shape).Idx → EReal) : (⟨3, ![4, 2048, 1024]⟩ : Shape).Idx → EReal :=
  fun i => x1 i + x2 i
/-- Second result: each row's mean. -/
def outMean (x1 x2 : (⟨3, ![4, 2048, 1024]⟩ : Shape).Idx → EReal) : (⟨2, ![4, 2048]⟩ : Shape).Idx → EReal :=
  fun i => mean (row x1 x2 (i 0) (i 1))
/-- Third result: each row's reciprocal standard deviation. -/
def outRstd (x1 x2 : (⟨3, ![4, 2048, 1024]⟩ : Shape).Idx → EReal) : (⟨2, ![4, 2048]⟩ : Shape).Idx → EReal :=
  fun i => rstd (row x1 x2 (i 0) (i 1))
/-- Fourth result: each normalised row against each weight column, plus the bias. -/
def outProj (x1 x2 : (⟨3, ![4, 2048, 1024]⟩ : Shape).Idx → EReal) (w : (⟨2, ![1024, 4096]⟩ : Shape).Idx → EReal)
    (bias : (⟨1, ![4096]⟩ : Shape).Idx → EReal) (g be : (⟨1, ![1024]⟩ : Shape).Idx → EReal) :
    (⟨3, ![4, 2048, 4096]⟩ : Shape).Idx → EReal :=
  fun i => proj (row x1 x2 (i 0) (i 1)) (fun n => g (ix1 n)) (fun n => be (ix1 n)) (fun k => w (ix2 k (i 2))) (bias (ix1 (i 2)))

end Cert.RowNorm

end
-- ==== Proof.RefRows.lean ====
/-
  The reference's four results, read one operation at a time, are the row functions of the specification:
  its host sum is 0 + ∑ over the last axis, its dot_general the sum over the contracted axis, its broadcasts
  read the row's mean, its reciprocal standard deviation, γ, β and the bias at the obvious coordinates.
-/
import proofs.«146103_j36558761623582_1_alg».proof.Proof.Gen.ReferenceIdeal.Read
import proofs.«146103_j36558761623582_1_alg».proof.Proof.RowNorm

noncomputable section

namespace Cert.ReferenceIdeal.RefRows

open Cert.ReferenceIdeal Cert.ReferenceIdeal.Gen Cert.ReferenceIdeal.Read Cert.RowNorm
open Idealize.ShloMosaic Idealize.ShloMosaic.TcCoe Idealize.ShloMosaic.ValueIdx

/-! ## The index functions of the reading at indices built from coordinates

  Each reduction, broadcast and contraction reads its operand at an index computed from the result's index. At an index
  given by its coordinates these are again indices given by coordinates: every axis is checked by evaluation. -/

/-- The first sum reads row (b, m) at its k-th entry. -/
theorem idx_v1_at (b : Fin 4) (m : Fin 2048) (k : Fin 1024) : idx_main_v1 (ix2 b m) k = ix3 b m k :=
  funext fun a => Fin.ext (by match a with | ⟨0, _⟩ => rfl | ⟨1, _⟩ => rfl | ⟨2, _⟩ => rfl)

/-- The second sum reads row (b, m) at its k-th entry. -/
theorem idx_v8_at (b : Fin 4) (m : Fin 2048) (k : Fin 1024) : idx_main_v8 (ix2 b m) k = ix3 b m k :=
  funext fun a => Fin.ext (by match a with | ⟨0, _⟩ => rfl | ⟨1, _⟩ => rfl | ⟨2, _⟩ => rfl)

/-- The mean broadcast along the row (for the variance) reads the mean of row (b, m). -/
theorem idx_v4_v5_at (b : Fin 4) (m : Fin 2048) (n : Fin 1024) : idx_main_v4 (idx_main_v5 (ix3 b m n)) = ix2 b m :=
  funext fun a => Fin.ext (by match a with | ⟨0, _⟩ => rfl | ⟨1, _⟩ => rfl)

/-- The mean broadcast along the row (for the normalised entries) reads the mean of row (b, m). -/
theorem idx_v14_v15_at (b : Fin 4) (m : Fin 2048) (n : Fin 1024) : idx_main_v14 (idx_main_v15 (ix3 b m n)) = ix2 b m :=
  funext fun a => Fin.ext (by match a with | ⟨0, _⟩ => rfl | ⟨1, _⟩ => rfl)

/-- The reciprocal standard deviation broadcast along the row reads that of row (b, m). -/
theorem idx_v17_v18_at (b : Fin 4) (m : Fin 2048) (n : Fin 1024) : idx_main_v17 (idx_main_v18 (ix3 b m n)) = ix2 b m :=
  funext fun a => Fin.ext (by match a with | ⟨0, _⟩ => rfl | ⟨1, _⟩ => rfl)

/-- γ broadcast over the rows reads γ at the column. -/
theorem idx_v20_v21_at (b : Fin 4) (m : Fin 2048) (n : Fin 1024) : idx_main_v20 (idx_main_v21 (ix3 b m n)) = ix1 n :=
  funext fun a => Fin.ext (by match a with | ⟨0, _⟩ => rfl)

/-- β broadcast over the rows reads β at the column. -/
theorem idx_v23_v24_at (b : Fin 4) (m : Fin 2048) (n : Fin 1024) : idx_main_v23 (idx_main_v24 (ix3 b m n)) = ix1 n :=
  funext fun a => Fin.ext (by match a with | ⟨0, _⟩ => rfl)

/-- The bias broadcast over the rows reads the bias at the output column. -/
theorem idx_v27_v28_at (b : Fin 4) (m : Fin 2048) (j : Fin 4096) : idx_main_v27 (idx_main_v28 (ix3 b m j)) = ix1 j :=
  funext fun a => Fin.ext (by match a with | ⟨0, _⟩ => rfl)

/-- The contraction's left operand is read in row (b, m) at the contracted position. -/
theorem lidx_v26_at (b : Fin 4) (m : Fin 2048) (j : Fin 4096) (k : Fin 1024) : lidx_main_v26 (ix3 b m j) k = ix3 b m k :=
  funext fun a => Fin.ext (by match a with | ⟨0, _⟩ => rfl | ⟨1, _⟩ => rfl | ⟨2, _⟩ => rfl)

/-- The contraction's right operand is read at the contracted position in column j. -/
theorem ridx_v26_at (b : Fin 4) (m : Fin 2048) (j : Fin 4096) (k : Fin 1024) : ridx_main_v26 (ix3 b m j) k = ix2 k j :=
  funext fun a => Fin.ext (by match a with | ⟨0, _⟩ => rfl | ⟨1, _⟩ => rfl)

/-! ## The stages at a row -/

/-- The sum of the inputs at (b, m, n) is the n-th entry of row (b, m). -/
theorem v0_at (x0 x1 : (⟨S4x2048x1024, .f32⟩ : BufTy).Contents (Elt Ideal)) (b : Fin 4) (m : Fin 2048) (n : Fin 1024) :
    val_main_v0 (F := Ideal) x0 x1 (ix3 b m n) = row x0 x1 b m n := rfl

/-- The quotient of the row's sum (the host sum starts from the f32 word 0, which is 0) by the row length is the row's mean. -/
theorem v3_at (x0 x1 : (⟨S4x2048x1024, .f32⟩ : BufTy).Contents (Elt Ideal)) (b : Fin 4) (m : Fin 2048) :
    val_main_v3 (F := Ideal) x0 x1 (ix2 b m) = mean (row x0 x1 b m) := by
  rw [val_main_v3_apply, val_main_v1_apply, val_main_v2_apply, val_main_cst_0_apply, val_main_cst_apply]
  rw [Ideal.hostDivf_def, Ideal.ofBits_def, Ideal.ofBits_def, Ideal.ofBits_zero_f32, zero_add]
  unfold mean
  refine congrArg (Ideal.div · _) (Finset.sum_congr rfl fun k _ => ?_)
  rw [idx_v1_at, v0_at]

/-- An entry less the broadcast mean is the centred entry. -/
theorem v6_at (x0 x1 : (⟨S4x2048x1024, .f32⟩ : BufTy).Contents (Elt Ideal)) (b : Fin 4) (m : Fin 2048) (n : Fin 1024) :
    val_main_v6 (F := Ideal) x0 x1 (ix3 b m n) = cen (row x0 x1 b m) n := by
  rw [val_main_v6_apply, val_main_v5_apply, val_main_v4_apply, idx_v4_v5_at, v3_at, v0_at, Ideal.subf_def]
  rfl

/-- The second such difference (the program computes it again for the normalised entries) is the same centred entry. -/
theorem v16_at (x0 x1 : (⟨S4x2048x1024, .f32⟩ : BufTy).Contents (Elt Ideal)) (b : Fin 4) (m : Fin 2048) (n : Fin 1024) :
    val_main_v16 (F := Ideal) x0 x1 (ix3 b m n) = cen (row x0 x1 b m) n := by
  rw [val_main_v16_apply, val_main_v15_apply, val_main_v14_apply, idx_v14_v15_at, v3_at, v0_at, Ideal.subf_def]
  rfl

/-- rsqrt of the mean square of the centred entries plus ε is the row's reciprocal standard deviation. -/
theorem v13_at (x0 x1 : (⟨S4x2048x1024, .f32⟩ : BufTy).Contents (Elt Ideal)) (b : Fin 4) (m : Fin 2048) :
    val_main_v13 (F := Ideal) x0 x1 (ix2 b m) = rstd (row x0 x1 b m) := by
  rw [val_main_v13_apply, val_main_v12_apply, val_main_v10_apply, val_main_v8_apply, val_main_v9_apply, val_main_v11_apply,
    val_main_cst_1_apply, val_main_cst_2_apply, val_main_cst_3_apply]
  rw [Ideal.hostUnary_rsqrt_def, Ideal.addf_def, Ideal.hostDivf_def, Ideal.ofBits_def, Ideal.ofBits_def, Ideal.ofBits_def,
    Ideal.ofBits_zero_f32, zero_add]
  unfold rstd
  refine congrArg Ideal.rsqrt (congrArg (· + _) (congrArg (Ideal.div · _) (Finset.sum_congr rfl fun k _ => ?_)))
  rw [idx_v8_at, val_main_v7_apply, v6_at, Ideal.mulf_def]

/-- The centred entry times the broadcast reciprocal standard deviation times γ plus β is the normalised entry. -/
theorem v25_at (x0 x1 : (⟨S4x2048x1024, .f32⟩ : BufTy).Contents (Elt Ideal)) (x4 x5 : (⟨S1024, .f32⟩ : BufTy).Contents (Elt Ideal))
    (b : Fin 4) (m : Fin 2048) (n : Fin 1024) :
    val_main_v25 (F := Ideal) x0 x1 x4 x5 (ix3 b m n)
      = norm (row x0 x1 b m) (fun n => x4 (ix1 n)) (fun n => x5 (ix1 n)) n := by
  rw [val_main_v25_apply, val_main_v22_apply, val_main_v19_apply, v16_at, val_main_v18_apply, val_main_v17_apply, idx_v17_v18_at,
    v13_at, val_main_v21_apply, val_main_v20_apply, idx_v20_v21_at, val_main_v24_apply, val_main_v23_apply, idx_v23_v24_at]
  rw [Ideal.addf_def, Ideal.mulf_def, Ideal.mulf_def]
  rfl

/-- The reference's first result is the sum of the two inputs. -/
theorem add_eq (x0 x1 : (⟨S4x2048x1024, .f32⟩ : BufTy).Contents (Elt Ideal)) :
    val_main_v0 (F := Ideal) x0 x1 = outAdd x0 x1 := by
  funext i
  rfl

/-- The reference's second result is each row's mean. -/
theorem mean_eq (x0 x1 : (⟨S4x2048x1024, .f32⟩ : BufTy).Contents (Elt Ideal)) :
    val_main_v3 (F := Ideal) x0 x1 = outMean x0 x1 := by
  funext i
  obtain ⟨b, m, rfl⟩ : ∃ b m, i = ix2 b m := ⟨i 0, i 1, eq_ix2 i⟩
  exact v3_at x0 x1 b m

/-- The reference's third result is each row's reciprocal standard deviation. -/
theorem rstd_eq (x0 x1 : (⟨S4x2048x1024, .f32⟩ : BufTy).Contents (Elt Ideal)) :
    val_main_v13 (F := Ideal) x0 x1 = outRstd x0 x1 := by
  funext i
  obtain ⟨b, m, rfl⟩ : ∃ b m, i = ix2 b m := ⟨i 0, i 1, eq_ix2 i⟩
  exact v13_at x0 x1 b m

/-- The reference's fourth result is each normalised row against each weight column, plus the bias. -/
theorem proj_eq (x0 x1 : (⟨S4x2048x1024, .f32⟩ : BufTy).Contents (Elt Ideal)) (x2 : (⟨S1024x4096, .f32⟩ : BufTy).Contents (Elt Ideal))
    (x3 : (⟨S4096, .f32⟩ : BufTy).Contents (Elt Ideal)) (x4 x5 : (⟨S1024, .f32⟩ : BufTy).Contents (Elt Ideal)) :
    val_main_v29 (F := Ideal) x0 x1 x2 x3 x4 x5 = outProj x0 x1 x2 x3 x4 x5 := by
  funext i
  obtain ⟨b, m, j, rfl⟩ : ∃ b m j, i = ix3 b m j := ⟨i 0, i 1, i 2, eq_ix3 i⟩
  rw [val_main_v29_apply, val_main_v26_apply, val_main_v28_apply, val_main_v27_apply, idx_v27_v28_at, Ideal.addf_def]
  show _ = proj (row x0 x1 b m) (fun n => x4 (ix1 n)) (fun n => x5 (ix1 n)) (fun k => x2 (ix2 k j)) (x3 (ix1 j))
  unfold proj
  refine congrArg (· + _) (Finset.sum_congr rfl fun k _ => ?_)
  rw [lidx_v26_at, ridx_v26_at, v25_at]

end Cert.ReferenceIdeal.RefRows

end
-- ==== Proof.BlockRows.lean ====
/-
  The kernel body's stored values at one point of the grid, read at an entry of the block, are the row functions
  of the specification at the block's own rows: the lane sum is the sum over the row, the matrix product into a
  zero accumulator the sum over the contracted axis, the changes of float format the identity.
-/
import proofs.«146103_j36558761623582_1_alg».proof.Proof.Gen.KernelIdeal.Skeleton
import proofs.«146103_j36558761623582_1_alg».proof.Proof.RowNorm
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockRows

open Cert.KernelIdeal Cert.KernelIdeal.Gen Cert.RowNorm
open Idealize.ShloMosaic Idealize.ShloMosaic.TcCoe Idealize.ShloMosaic.ValueIdx

/-- Row p of the sum of the two input blocks. -/
def brow (x0 x1 : Vec Ideal S256x1024 .f32) (p : Fin 256) : Fin 1024 → EReal :=
  fun n => x0 (ix2 p n) + x1 (ix2 p n)

/-! ## The column layouts: a vector kept as a one-lane column, and a column spread over the lanes -/

section Column
variable {α : Type}

/-- An `[a]` array cast to the column `[a, 1]` reads, at `(i, u)`, the operand at `i`, whatever the unit coordinate `u`:
    row `i` of a one-lane array sits at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The lane sum -/

/-- The sum along the lanes of a [256, 1024] block reads, at row `p`, the sum over that row's 1024 entries. -/
theorem laneSum_apply (v : FVec Ideal S256x1024 .f32) (h : S256x1024.Reduces [1] S256) (hφ : FKind.Formats .f32)
    (hacc : (0x00000000#32 : BitVec 32) = FKind.add.neutral .f32 hφ) (p : Fin 256) :
    multiReduction (F := Ideal) .add [1] S256 v 0x00000000#32 h hφ hacc (ix1 p) = ∑ n : Fin 1024, v (ix2 p n) := by
  refine (Ideal.multiReduction_add_single v _ h hφ hacc (ix1 p)).trans ?_
  refine Finset.sum_congr rfl fun n _ => congrArg v ?_
  funext a
  refine Fin.ext ?_
  match a with
  | ⟨0, _⟩ => rfl
  | ⟨1, _⟩ => rfl

/-- The same sum kept as a [256, 1] column. -/
theorem laneSumCol_apply (v : FVec Ideal S256x1024 .f32) (h : S256x1024.Reduces [1] S256) (hφ : FKind.Formats .f32)
    (hacc : (0x00000000#32 : BitVec 32) = FKind.add.neutral .f32 hφ) (hc : S256.ShapeCasts S256x1) (p : Fin 256) (z : Fin 1) :
    shapeCast S256x1 (multiReduction (F := Ideal) .add [1] S256 v 0x00000000#32 h hφ hacc) hc (ix2 p z)
      = ∑ n : Fin 1024, v (ix2 p n) :=
  (shapeCast_a_a1_apply _ hc p z).trans (laneSum_apply v h hφ hacc p)

/-! ## The matrix product -/

/-- On the left operand's kept axis the operand index is the output row. -/
theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- On the left operand's contracted axis it is the contraction position. -/
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- On the right operand's contracted axis it is the contraction position. -/
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- On the right operand's kept axis the operand index is the output column. -/
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a [256, 1024] block with a [1024, 1024] block into the zero accumulator reads, at `(p, q)`, the sum over the
    contracted axis of row `p` of the left block against column `q` of the right one. -/
theorem matmul_zero_apply (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-- A reciprocal square root at an entry is the extended reals' of the entry. -/
theorem rsqrt_apply {s : Shape} {φ : FTy} (a : FVec Ideal s φ) (i : s.Idx) : rsqrt a i = Ideal.rsqrt (a i) := rfl

/-! ## The four stored values -/

/-- The first store's value: the sum of the two input blocks. -/
theorem sum_apply (x0 x1 : Vec Ideal S256x1024 .f32) (p : Fin 256) (q : Fin 1024) :
    k0_pay2 (F := Ideal) x0 x1 (ix2 p q) = x0 (ix2 p q) + x1 (ix2 p q) := by
  unfold k0_pay2
  simp only [shapeCast_self]
  rfl

/-- The second store's value: each block row's mean. -/
theorem mean_apply (x0 x1 : Vec Ideal S256x1024 .f32) (p : Fin 256) (z : Fin 1) :
    k0_pay3 (F := Ideal) x0 x1 (ix2 p z) = mean (brow x0 x1 p) := by
  unfold k0_pay3 mean
  refine (divf_apply _ _ (ix2 p z)).trans ?_
  refine congrArg₂ Ideal.div ?_ rfl
  refine (laneSumCol_apply _ _ _ _ _ p z).trans ?_
  exact Finset.sum_congr rfl fun n _ => sum_apply x0 x1 p n

/-- The centred block: each entry of a block row less the row's mean. -/
theorem cen_apply (x0 x1 : Vec Ideal S256x1024 .f32) (p : Fin 256) (n : Fin 1024) :
    k0_pay4 (F := Ideal) x0 x1 (ix2 p n) = cen (brow x0 x1 p) n := by
  unfold k0_pay4 cen
  refine (subf_apply _ _ (ix2 p n)).trans ?_
  refine congrArg₂ (fun a b : EReal => a - b) (sum_apply x0 x1 p n) ?_
  exact (broadcastTo_a1_ab_apply _ _ p n).trans (mean_apply x0 x1 p 0)

/-- The third store's value: each block row's reciprocal standard deviation. -/
theorem rstd_apply (x0 x1 : Vec Ideal S256x1024 .f32) (p : Fin 256) (z : Fin 1) :
    k0_pay5 (F := Ideal) x0 x1 (ix2 p z) = rstd (brow x0 x1 p) := by
  unfold k0_pay5 rstd
  refine (rsqrt_apply _ (ix2 p z)).trans ?_
  refine congrArg Ideal.rsqrt ?_
  refine (addf_apply _ _ (ix2 p z)).trans ?_
  refine congrArg₂ (fun a b : EReal => a + b) ?_ rfl
  refine (divf_apply _ _ (ix2 p z)).trans ?_
  refine congrArg₂ Ideal.div ?_ rfl
  refine (laneSumCol_apply _ _ _ _ _ p z).trans ?_
  refine Finset.sum_congr rfl fun n _ => ?_
  refine (mulf_apply _ _ (ix2 p n)).trans ?_
  rw [cen_apply]

/-- The normalised block, scaled by the gain row and shifted by the offset row; the narrower format changes nothing. -/
theorem norm_apply (x0 x1 : Vec Ideal S256x1024 .f32) (g be : Vec Ideal S1x1024 .f32) (p : Fin 256) (k : Fin 1024) :
    k0_pay6 (F := Ideal) x0 x1 g be (ix2 p k)
      = RowNorm.norm (brow x0 x1 p) (fun n => g (ix2 (0 : Fin 1) n)) (fun n => be (ix2 (0 : Fin 1) n)) k := by
  unfold k0_pay6 RowNorm.norm
  refine (truncf_apply (φ := .f32) (ψ := .bf16) _ _ (ix2 p k)).trans ?_
  refine (addf_apply _ _ (ix2 p k)).trans ?_
  refine congrArg₂ (fun a b : EReal => a + b) ?_ ?_
  · refine (mulf_apply _ _ (ix2 p k)).trans ?_
    refine congrArg₂ (fun a b : EReal => a * b) ?_ ?_
    · refine (mulf_apply _ _ (ix2 p k)).trans ?_
      refine congrArg₂ (fun a b : EReal => a * b) (cen_apply x0 x1 p k) ?_
      exact (broadcastTo_a1_ab_apply _ _ p k).trans (rstd_apply x0 x1 p 0)
    · refine (broadcastTo_1b_ab_apply _ _ p k).trans ?_
      rw [shapeCast_self]
  · refine (broadcastTo_1b_ab_apply _ _ p k).trans ?_
    rw [shapeCast_self]

/-- The fourth store's value: each normalised block row against each column of the weight block, plus the bias block. -/
theorem proj_apply (x0 x1 : Vec Ideal S256x1024 .f32) (w : Vec Ideal S1024x1024 .f32) (b g be : Vec Ideal S1x1024 .f32)
    (p : Fin 256) (q : Fin 1024) :
    k0_pay1 (F := Ideal) (k0_pay6 (F := Ideal) x0 x1 g be) w b (ix2 p q)
      = proj (brow x0 x1 p) (fun n => g (ix2 (0 : Fin 1) n)) (fun n => be (ix2 (0 : Fin 1) n)) (fun k => w (ix2 k q)) (b (ix2 (0 : Fin 1) q)) := by
  unfold k0_pay1 proj
  refine (addf_apply _ _ (ix2 p q)).trans ?_
  refine congrArg₂ (fun a b : EReal => a + b) ?_ ?_
  · refine (matmul_zero_apply _ _ p q).trans ?_
    refine Finset.sum_congr rfl fun k _ => ?_
    refine congrArg₂ (fun a b : EReal => a * b) (norm_apply x0 x1 g be p k) ?_
    exact truncf_apply (φ := .f32) (ψ := .bf16) _ _ (ix2 k q)
  · refine (broadcastTo_1b_ab_apply _ _ p q).trans ?_
    rw [shapeCast_self]

end Cert.KernelIdeal.BlockRows

end
-- ==== Proof.Blocks.lean ====
/-
  From the grid's blocks to the whole result arrays of the kernel region.

  The region works on the inputs flattened to 8192 rows. Grid point (i, j) takes rows 256·i … 256·i + 255 of the two
  inputs, columns 1024·j … 1024·j + 1023 of the weight matrix and of the bias, and all of γ and β. What it writes back
  into each of its four result arrays is the restriction, to its own block, of one function of the whole arrays:
  entry (r, n) of the sum array is a0 (r, n) + a1 (r, n); entry (r, 0) of the mean and of the reciprocal-deviation
  arrays is the row function of row r; entry (r, d) of the projection array is row r normalised, against column d of the
  weights, plus bias d. The blocks of each result array cover it, so each array ends holding that function.
-/
import proofs.«146103_j36558761623582_1_alg».proof.Proof.Gen.KernelIdeal.Frame
import proofs.«146103_j36558761623582_1_alg».proof.Proof.BlockRows
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.BlockRows Cert.RowNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The four result arrays as functions of the flattened arrays -/

/-- Row r of the sum of the two flattened inputs. -/
def frow (a0 a1 : S8192x1024.Idx → EReal) (r : Fin 8192) : Fin 1024 → EReal := fun n => a0 (ix2 r n) + a1 (ix2 r n)

/-- The sum array. -/
def sumArr (a0 a1 : S8192x1024.Idx → EReal) : S8192x1024.Idx → EReal := fun j => a0 j + a1 j
/-- The column of row means. -/
def meanArr (a0 a1 : S8192x1024.Idx → EReal) : S8192x1.Idx → EReal := fun j => mean (frow a0 a1 (j 0))
/-- The column of reciprocal standard deviations. -/
def rstdArr (a0 a1 : S8192x1024.Idx → EReal) : S8192x1.Idx → EReal := fun j => rstd (frow a0 a1 (j 0))
/-- The projection array. -/
def projArr (a0 a1 : S8192x1024.Idx → EReal) (w : S1024x4096.Idx → EReal) (b2 : S1x4096.Idx → EReal) (g2 be2 : S1x1024.Idx → EReal) :
    S8192x4096.Idx → EReal :=
  fun j => proj (frow a0 a1 (j 0)) (fun n => g2 (ix2 (0 : Fin 1) n)) (fun n => be2 (ix2 (0 : Fin 1) n)) (fun k => w (ix2 k (j 1))) (b2 (ix2 (0 : Fin 1) (j 1)))

/-! ## The arrays as the region finds them, and each input window's block, at their literal types -/

abbrev arr0 (c : Dev nD) : S8192x1024.Idx → EReal := V m c main_call0_v0
abbrev arr1 (c : Dev nD) : S8192x1024.Idx → EReal := V m c main_call0_v1
abbrev arr2 (c : Dev nD) : S1024x4096.Idx → EReal := V m c main_arg2
abbrev arr3 (c : Dev nD) : S1x4096.Idx → EReal := V m c main_call0_v4
abbrev arr4 (c : Dev nD) : S1x1024.Idx → EReal := V m c main_call0_v2
abbrev arr5 (c : Dev nD) : S1x1024.Idx → EReal := V m c main_call0_v3

abbrev blk0 (c : Dev nD) (t : Fin cfg0.N) : Vec Ideal S256x1024 .f32 := iblk m c 0 t
abbrev blk1 (c : Dev nD) (t : Fin cfg0.N) : Vec Ideal S256x1024 .f32 := iblk m c 1 t
abbrev blk2 (c : Dev nD) (t : Fin cfg0.N) : Vec Ideal S1024x1024 .f32 := iblk m c 2 t
abbrev blk3 (c : Dev nD) (t : Fin cfg0.N) : Vec Ideal S1x1024 .f32 := iblk m c 3 t
abbrev blk4 (c : Dev nD) (t : Fin cfg0.N) : Vec Ideal S1x1024 .f32 := iblk m c 4 t
abbrev blk5 (c : Dev nD) (t : Fin cfg0.N) : Vec Ideal S1x1024 .f32 := iblk m c 5 t

/-! ## The index maps, decided once over the 128 grid points -/

/-- The two inputs and the first three results move with the grid's first coordinate only, at most 31; the weights and the bias
    with its second only, at most 3; the projection with both; γ and β stay. -/
theorem idx_facts : ∀ t : Fin cfg0.N,
    win0_0.index t (0 : Fin 2) ≤ 31 ∧ win0_0.index t (1 : Fin 2) = 0
    ∧ win0_1.index t (0 : Fin 2) = win0_0.index t (0 : Fin 2) ∧ win0_1.index t (1 : Fin 2) = 0
    ∧ win0_2.index t (0 : Fin 2) = 0 ∧ win0_2.index t (1 : Fin 2) ≤ 3
    ∧ win0_3.index t (0 : Fin 2) = 0 ∧ win0_3.index t (1 : Fin 2) = win0_2.index t (1 : Fin 2)
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_0.index t (0 : Fin 2) ∧ win0_6.index t (1 : Fin 2) = 0
    ∧ win0_7.index t (0 : Fin 2) = win0_0.index t (0 : Fin 2) ∧ win0_7.index t (1 : Fin 2) = 0
    ∧ win0_8.index t (0 : Fin 2) = win0_0.index t (0 : Fin 2) ∧ win0_8.index t (1 : Fin 2) = 0
    ∧ win0_9.index t (0 : Fin 2) = win0_0.index t (0 : Fin 2) ∧ win0_9.index t (1 : Fin 2) = win0_2.index t (1 : Fin 2) :=
  (by decide +kernel : ∀ t : Fin grid0.N, _)

/-- Every row block is written back by some point, for each of the first three results; -/
theorem onto_rows : ∀ q0 : Fin 32, ∃ t : Fin cfg0.N, win0_0.index t (0 : Fin 2) = q0.val
    ∧ win0_6.flush t = true ∧ win0_7.flush t = true ∧ win0_8.flush t = true :=
  (by decide +kernel : ∀ q0 : Fin 32, ∃ t : Fin grid0.N, _)

/-- and every (row block, column block) pair is some point's, for the projection. -/
theorem onto_tiles : ∀ (q0 : Fin 32) (q1 : Fin 4), ∃ t : Fin cfg0.N, win0_0.index t (0 : Fin 2) = q0.val ∧ win0_2.index t (1 : Fin 2) = q1.val :=
  (by decide +kernel : ∀ (q0 : Fin 32) (q1 : Fin 4), ∃ t : Fin grid0.N, _)

/-! ## A block row is a row of the flattened inputs -/

/-- Row p of the sum of the two input blocks at point t is row r of the sum of the flattened inputs, r the block's first row plus p. -/
theorem brow_eq (c : Dev nD) (t : Fin cfg0.N) (p : Fin 256) (r : Fin 8192) (hr : r.val = win0_0.index t (0 : Fin 2) * 256 + p.val) :
    brow (blk0 m c t) (blk1 m c t) p = frow (arr0 m c) (arr1 m c) r := by
  obtain ⟨e00, e01, e10, e11, -⟩ := idx_facts t
  funext n
  have h0 : ((cfg0.win 0).blk t).view.emb (ix2 p n) = ix2 r n := by
    funext a; apply Fin.ext
    match a with
    | ⟨0, _⟩ => show win0_0.index t (0 : Fin 2) * 256 + 1 * p.val = r.val; omega
    | ⟨1, _⟩ => show win0_0.index t (1 : Fin 2) * 1024 + 1 * n.val = n.val; omega
  have h1 : ((cfg0.win 1).blk t).view.emb (ix2 p n) = ix2 r n := by
    funext a; apply Fin.ext
    match a with
    | ⟨0, _⟩ => show win0_1.index t (0 : Fin 2) * 256 + 1 * p.val = r.val; omega
    | ⟨1, _⟩ => show win0_1.index t (1 : Fin 2) * 1024 + 1 * n.val = n.val; omega
  show arr0 m c (((cfg0.win 0).blk t).view.emb (ix2 p n)) + arr1 m c (((cfg0.win 1).blk t).view.emb (ix2 p n)) = arr0 m c (ix2 r n) + arr1 m c (ix2 r n)
  rw [h0, h1]

/-! ## The sum array -/

/-- What point t writes back into the sum array is its block of the sum of the flattened inputs. -/
theorem flushed6_eq (c : Dev nD) (t : Fin cfg0.N) :
    (dats m 0 c).flushed 6 t = ((cfg0.win 6).blk t).view.read (Elt Ideal) (sumArr (arr0 m c) (arr1 m c)) := by
  show (cfg0.win 6).cut (grid0.coords t) ((dats m 0 c).after 6 t) = _
  rw [after0_6]
  unfold out0_6
  rw [View.canon_unit_zero hz]
  simp only [View.ld_unit_zero (S := S256x1024) hz]
  obtain ⟨e00, e01, e10, e11, e20, e21, e30, e31, e40, e41, e50, e51, e60, e61, -⟩ := idx_facts t
  funext j
  obtain ⟨p, q, rfl⟩ : ∃ (p : Fin 256) (q : Fin 1024), j = ix2 p q := ⟨j 0, j 1, eq_ix2 j⟩
  show k0_pay2 (F := Ideal) (blk0 m c t) (blk1 m c t) (ix2 p q) = sumArr (arr0 m c) (arr1 m c) (((cfg0.win 6).blk t).view.emb (ix2 p q))
  rw [sum_apply]
  have h0 : ((cfg0.win 0).blk t).view.emb (ix2 p q) = ((cfg0.win 6).blk t).view.emb (ix2 p q) := by
    funext a; apply Fin.ext
    match a with
    | ⟨0, _⟩ => show win0_0.index t (0 : Fin 2) * 256 + 1 * p.val = win0_6.index t (0 : Fin 2) * 256 + 1 * p.val; omega
    | ⟨1, _⟩ => show win0_0.index t (1 : Fin 2) * 1024 + 1 * q.val = win0_6.index t (1 : Fin 2) * 1024 + 1 * q.val; omega
  have h1 : ((cfg0.win 1).blk t).view.emb (ix2 p q) = ((cfg0.win 6).blk t).view.emb (ix2 p q) := by
    funext a; apply Fin.ext
    match a with
    | ⟨0, _⟩ => show win0_1.index t (0 : Fin 2) * 256 + 1 * p.val = win0_6.index t (0 : Fin 2) * 256 + 1 * p.val; omega
    | ⟨1, _⟩ => show win0_1.index t (1 : Fin 2) * 1024 + 1 * q.val = win0_6.index t (1 : Fin 2) * 1024 + 1 * q.val; omega
  show arr0 m c (((cfg0.win 0).blk t).view.emb (ix2 p q)) + arr1 m c (((cfg0.win 1).blk t).view.emb (ix2 p q))
    = arr0 m c (((cfg0.win 6).blk t).view.emb (ix2 p q)) + arr1 m c (((cfg0.win 6).blk t).view.emb (ix2 p q))
  rw [h0, h1]

/-- An index of the sum array is in point t's block iff each coordinate is in the block's range. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_call0_v5_0).slice (win0_6.rect t)).set ↔ _
  rw [View.set_slice_whole, Rect.mem_set_unit]
  exact Iff.rfl

/-- Row r lies in the block of the point whose row block is r / 256, and that point writes back. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht, f6, -, -⟩ := onto_rows ⟨(i 0).val / 256, by omega⟩
  have ht' : win0_0.index t (0 : Fin 2) = (i 0).val / 256 := ht
  obtain ⟨e00, e01, e10, e11, e20, e21, e30, e31, e40, e41, e50, e51, e60, e61, -⟩ := idx_facts t
  refine ⟨t, f6, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The sum array after the run. -/
theorem final6 (c : Dev nD) : (dats m 0 c).arrAt 6 cfg0.N = sumArr (arr0 m c) (arr1 m c) :=
  (dats m 0 c).arrAt_eq_of_cover 6 (sumArr (arr0 m c) (arr1 m c)) (fun t _ => flushed6_eq m c t) cover6

/-! ## The column of means -/

/-- What point t writes back into the mean column is its block of the row means. -/
theorem flushed7_eq (c : Dev nD) (t : Fin cfg0.N) :
    (dats m 0 c).flushed 7 t = ((cfg0.win 7).blk t).view.read (Elt Ideal) (meanArr (arr0 m c) (arr1 m c)) := by
  show (cfg0.win 7).cut (grid0.coords t) ((dats m 0 c).after 7 t) = _
  rw [after0_7]
  unfold out0_7
  rw [View.canon_unit_zero hz]
  simp only [View.ld_unit_zero (S := S256x1024) hz]
  obtain ⟨e00, e01, e10, e11, e20, e21, e30, e31, e40, e41, e50, e51, e60, e61, e70, e71, -⟩ := idx_facts t
  funext j
  obtain ⟨p, z, rfl⟩ : ∃ (p : Fin 256) (z : Fin 1), j = ix2 p z := ⟨j 0, j 1, eq_ix2 j⟩
  show k0_pay3 (F := Ideal) (blk0 m c t) (blk1 m c t) (ix2 p z) = meanArr (arr0 m c) (arr1 m c) (((cfg0.win 7).blk t).view.emb (ix2 p z))
  rw [mean_apply]
  show mean (brow (blk0 m c t) (blk1 m c t) p) = mean (frow (arr0 m c) (arr1 m c) ((((cfg0.win 7).blk t).view.emb (ix2 p z)) 0))
  rw [brow_eq m c t p ((((cfg0.win 7).blk t).view.emb (ix2 p z)) 0) (by
    show win0_7.index t (0 : Fin 2) * 256 + 1 * p.val = win0_0.index t (0 : Fin 2) * 256 + p.val; omega)]

theorem mem_blk7 (t : Fin cfg0.N) (i : S8192x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_call0_v5_1).slice (win0_7.rect t)).set ↔ _
  rw [View.set_slice_whole, Rect.mem_set_unit]
  exact Iff.rfl

theorem cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  obtain ⟨t, ht, -, f7, -⟩ := onto_rows ⟨(i 0).val / 256, by omega⟩
  have ht' : win0_0.index t (0 : Fin 2) = (i 0).val / 256 := ht
  obtain ⟨e00, e01, e10, e11, e20, e21, e30, e31, e40, e41, e50, e51, e60, e61, e70, e71, -⟩ := idx_facts t
  refine ⟨t, f7, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1 ≤ (i 1).val ∧ (i 1).val < win0_7.index t (1 : Fin 2) * 1 + 1; omega

/-- The mean column after the run. -/
theorem final7 (c : Dev nD) : (dats m 0 c).arrAt 7 cfg0.N = meanArr (arr0 m c) (arr1 m c) :=
  (dats m 0 c).arrAt_eq_of_cover 7 (meanArr (arr0 m c) (arr1 m c)) (fun t _ => flushed7_eq m c t) cover7

/-! ## The column of reciprocal standard deviations -/

theorem flushed8_eq (c : Dev nD) (t : Fin cfg0.N) :
    (dats m 0 c).flushed 8 t = ((cfg0.win 8).blk t).view.read (Elt Ideal) (rstdArr (arr0 m c) (arr1 m c)) := by
  show (cfg0.win 8).cut (grid0.coords t) ((dats m 0 c).after 8 t) = _
  rw [after0_8]
  unfold out0_8
  rw [View.canon_unit_zero hz]
  simp only [View.ld_unit_zero (S := S256x1024) hz]
  obtain ⟨e00, e01, e10, e11, e20, e21, e30, e31, e40, e41, e50, e51, e60, e61, e70, e71, e80, e81, -⟩ := idx_facts t
  funext j
  obtain ⟨p, z, rfl⟩ : ∃ (p : Fin 256) (z : Fin 1), j = ix2 p z := ⟨j 0, j 1, eq_ix2 j⟩
  show k0_pay5 (F := Ideal) (blk0 m c t) (blk1 m c t) (ix2 p z) = rstdArr (arr0 m c) (arr1 m c) (((cfg0.win 8).blk t).view.emb (ix2 p z))
  rw [rstd_apply]
  show rstd (brow (blk0 m c t) (blk1 m c t) p) = rstd (frow (arr0 m c) (arr1 m c) ((((cfg0.win 8).blk t).view.emb (ix2 p z)) 0))
  rw [brow_eq m c t p ((((cfg0.win 8).blk t).view.emb (ix2 p z)) 0) (by
    show win0_8.index t (0 : Fin 2) * 256 + 1 * p.val = win0_0.index t (0 : Fin 2) * 256 + p.val; omega)]

theorem mem_blk8 (t : Fin cfg0.N) (i : S8192x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_call0_v5_2).slice (win0_8.rect t)).set ↔ _
  rw [View.set_slice_whole, Rect.mem_set_unit]
  exact Iff.rfl

theorem cover8 (i : S8192x1.Idx) : ∃ t : Fin cfg0.N, (cfg0.win 8).flush t = true ∧ i ∈ ((cfg0.win 8).blk t).view.set := by
  have hi0 : (i 0).val < 8192 := (i 0).isLt
  have hi1 : (i 1).val < 1 := (i 1).isLt
  obtain ⟨t, ht, -, -, f8⟩ := onto_rows ⟨(i 0).val / 256, by omega⟩
  have ht' : win0_0.index t (0 : Fin 2) = (i 0).val / 256 := ht
  obtain ⟨e00, e01, e10, e11, e20, e21, e30, e31, e40, e41, e50, e51, e60, e61, e70, e71, e80, e81, -⟩ := idx_facts t
  refine ⟨t, f8, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1 ≤ (i 1).val ∧ (i 1).val < win0_8.index t (1 : Fin 2) * 1 + 1; omega

/-- The reciprocal-deviation column after the run. -/
theorem final8 (c : Dev nD) : (dats m 0 c).arrAt 8 cfg0.N = rstdArr (arr0 m c) (arr1 m c) :=
  (dats m 0 c).arrAt_eq_of_cover 8 (rstdArr (arr0 m c) (arr1 m c)) (fun t _ => flushed8_eq m c t) cover8

/-! ## The projection array -/

/-- What point t writes back into the projection array is its tile: its rows normalised, against its columns of the weights, plus its
    stretch of the bias; γ and β are read whole at every point. -/
theorem flushed9_eq (c : Dev nD) (t : Fin cfg0.N) :
    (dats m 0 c).flushed 9 t = ((cfg0.win 9).blk t).view.read (Elt Ideal) (projArr (arr0 m c) (arr1 m c) (arr2 m c) (arr3 m c) (arr4 m c) (arr5 m c)) := by
  show (cfg0.win 9).cut (grid0.coords t) ((dats m 0 c).after 9 t) = _
  rw [after0_9]
  unfold out0_9
  rw [View.canon_unit_zero hz]
  simp only [View.ld_unit_zero (S := S256x1024) hz, View.ld_unit_zero (S := S1x1024) hz, View.ld_unit_zero (S := S1024x1024) hz]
  obtain ⟨e00, e01, e10, e11, e20, e21, e30, e31, e40, e41, e50, e51, e60, e61, e70, e71, e80, e81, e90, e91⟩ := idx_facts t
  funext j
  obtain ⟨p, q, rfl⟩ : ∃ (p : Fin 256) (q : Fin 1024), j = ix2 p q := ⟨j 0, j 1, eq_ix2 j⟩
  show k0_pay1 (F := Ideal) (k0_pay6 (F := Ideal) (blk0 m c t) (blk1 m c t) (blk4 m c t) (blk5 m c t)) (blk2 m c t) (blk3 m c t) (ix2 p q)
    = projArr (arr0 m c) (arr1 m c) (arr2 m c) (arr3 m c) (arr4 m c) (arr5 m c) (((cfg0.win 9).blk t).view.emb (ix2 p q))
  rw [proj_apply]
  have hr : ((((cfg0.win 9).blk t).view.emb (ix2 p q)) 0).val = win0_0.index t (0 : Fin 2) * 256 + p.val := by
    show win0_9.index t (0 : Fin 2) * 256 + 1 * p.val = _; omega
  have hd : ((((cfg0.win 9).blk t).view.emb (ix2 p q)) 1).val = win0_2.index t (1 : Fin 2) * 1024 + q.val := by
    show win0_9.index t (1 : Fin 2) * 1024 + 1 * q.val = _; omega
  have hg : (fun n : Fin 1024 => blk4 m c t (ix2 (0 : Fin 1) n)) = fun n => arr4 m c (ix2 (0 : Fin 1) n) := funext fun n => by
    show arr4 m c (((cfg0.win 4).blk t).view.emb (ix2 (0 : Fin 1) n)) = _
    refine congrArg (arr4 m c) (funext fun a => Fin.ext ?_)
    match a with
    | ⟨0, _⟩ => show win0_4.index t (0 : Fin 2) * 1 + 1 * (0 : Fin 1).val = 0; omega
    | ⟨1, _⟩ => show win0_4.index t (1 : Fin 2) * 1024 + 1 * n.val = n.val; omega
  have hbe : (fun n : Fin 1024 => blk5 m c t (ix2 (0 : Fin 1) n)) = fun n => arr5 m c (ix2 (0 : Fin 1) n) := funext fun n => by
    show arr5 m c (((cfg0.win 5).blk t).view.emb (ix2 (0 : Fin 1) n)) = _
    refine congrArg (arr5 m c) (funext fun a => Fin.ext ?_)
    match a with
    | ⟨0, _⟩ => show win0_5.index t (0 : Fin 2) * 1 + 1 * (0 : Fin 1).val = 0; omega
    | ⟨1, _⟩ => show win0_5.index t (1 : Fin 2) * 1024 + 1 * n.val = n.val; omega
  have hw : (fun k : Fin 1024 => blk2 m c t (ix2 k q)) = fun k => arr2 m c (ix2 k ((((cfg0.win 9).blk t).view.emb (ix2 p q)) 1)) := funext fun k => by
    show arr2 m c (((cfg0.win 2).blk t).view.emb (ix2 k q)) = _
    refine congrArg (arr2 m c) (funext fun a => Fin.ext ?_)
    match a with
    | ⟨0, _⟩ => show win0_2.index t (0 : Fin 2) * 1024 + 1 * k.val = k.val; omega
    | ⟨1, _⟩ => show win0_2.index t (1 : Fin 2) * 1024 + 1 * q.val = ((((cfg0.win 9).blk t).view.emb (ix2 p q)) 1).val; omega
  have hb : blk3 m c t (ix2 (0 : Fin 1) q) = arr3 m c (ix2 (0 : Fin 1) ((((cfg0.win 9).blk t).view.emb (ix2 p q)) 1)) := by
    show arr3 m c (((cfg0.win 3).blk t).view.emb (ix2 (0 : Fin 1) q)) = _
    refine congrArg (arr3 m c) (funext fun a => Fin.ext ?_)
    match a with
    | ⟨0, _⟩ => show win0_3.index t (0 : Fin 2) * 1 + 1 * (0 : Fin 1).val = 0; omega
    | ⟨1, _⟩ => show win0_3.index t (1 : Fin 2) * 1024 + 1 * q.val = ((((cfg0.win 9).blk t).view.emb (ix2 p q)) 1).val; omega
  show proj (brow (blk0 m c t) (blk1 m c t) p) (fun n => blk4 m c t (ix2 (0 : Fin 1) n)) (fun n => blk5 m c t (ix2 (0 : Fin 1) n))
      (fun k => blk2 m c t (ix2 k q)) (blk3 m c t (ix2 (0 : Fin 1) q))
    = proj (frow (arr0 m c) (arr1 m c) ((((cfg0.win 9).blk t).view.emb (ix2 p q)) 0)) (fun n => arr4 m c (ix2 (0 : Fin 1) n)) (fun n => arr5 m c (ix2 (0 : Fin 1) n))
      (fun k => arr2 m c (ix2 k ((((cfg0.win 9).blk t).view.emb (ix2 p q)) 1))) (arr3 m c (ix2 (0 : Fin 1) ((((cfg0.win 9).blk t).view.emb (ix2 p q)) 1)))
  rw [brow_eq m c t p _ hr, hg, hbe, hw, hb]

theorem mem_blk9 (t : Fin cfg0.N) (i : S8192x4096.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_call0_v5_3).slice (win0_9.rect t)).set ↔ _
  rw [View.set_slice_whole, Rect.mem_set_unit]
  exact Iff.rfl

/-- Entry (r, d) lies in the tile of the point (r / 256, d / 1024), and every point writes its tile back. -/
theorem cover9 (i : S8192x4096.Idx) : ∃ t : Fin cfg0.N, (cfg0.win 9).flush t = true ∧ i ∈ ((cfg0.win 9).blk t).view.set := by
  have hi0 : (i 0).val < 8192 := (i 0).isLt
  have hi1 : (i 1).val < 4096 := (i 1).isLt
  obtain ⟨t, ht0, ht1⟩ := onto_tiles ⟨(i 0).val / 256, by omega⟩ ⟨(i 1).val / 1024, by omega⟩
  have ht0' : win0_0.index t (0 : Fin 2) = (i 0).val / 256 := ht0
  have ht1' : win0_2.index t (1 : Fin 2) = (i 1).val / 1024 := ht1
  obtain ⟨e00, e01, e10, e11, e20, e21, e30, e31, e40, e41, e50, e51, e60, e61, e70, e71, e80, e81, e90, e91⟩ := idx_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-- The projection array after the run. -/
theorem final9 (c : Dev nD) : (dats m 0 c).arrAt 9 cfg0.N = projArr (arr0 m c) (arr1 m c) (arr2 m c) (arr3 m c) (arr4 m c) (arr5 m c) :=
  (dats m 0 c).arrAt_eq_of_cover 9 (projArr (arr0 m c) (arr1 m c) (arr2 m c) (arr3 m c) (arr4 m c) (arr5 m c)) (fun t _ => flushed9_eq m c t) cover9

end Cert.KernelIdeal.Blocks

end
-- ==== Proof.Results.lean ====
/-
  The idealized kernel's run, read: its four results as the specification's functions of the argument arrays.

  Before the region the host flattens the two inputs from [4, 2048, 1024] to [8192, 1024] and writes γ, β and the bias as
  single rows; after it, it gives the four result arrays their leading [4, 2048] axes back. A reshape keeps the row-major
  position, so flattened row 2048·b + m is row (b, m), and the row functions of the flattened arrays are the specification's
  row functions of the arguments.
-/
import proofs.«146103_j36558761623582_1_alg».proof.Proof.Blocks
import Idealize.ShloMosaic.Lib.StableHlo.Run
import Idealize.ShloMosaic.Lib.Pipeline.Value
import Idealize.ShloMosaic.Lib.ValueIdx

set_option maxRecDepth 16384

noncomputable section

namespace Cert.KernelIdeal.Results

open Cert.KernelIdeal Cert.KernelIdeal.Gen Cert.KernelIdeal.Blocks Cert.RowNorm
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds: the arguments through the host's reshapes -/

theorem arr0_eq (c : Dev nD) : arr0 m c = shapeCast S8192x1024 (m ((c : Thread nD τ).loc main_arg0)) shapeCasts_S4x2048x1024_S8192x1024 := by
  show StableHlo.after hostOps0 (fun b => m (c, b)) (Proc.devRef .tc main_call0_v0) = _
  after_results
  rfl
theorem arr1_eq (c : Dev nD) : arr1 m c = shapeCast S8192x1024 (m ((c : Thread nD τ).loc main_arg1)) shapeCasts_S4x2048x1024_S8192x1024 := by
  show StableHlo.after hostOps0 (fun b => m (c, b)) (Proc.devRef .tc main_call0_v1) = _
  after_results
  rfl
theorem arr2_eq (c : Dev nD) : arr2 m c = m ((c : Thread nD τ).loc main_arg2) := V_main_arg2 m c
theorem arr3_eq (c : Dev nD) : arr3 m c = shapeCast S1x4096 (m ((c : Thread nD τ).loc main_arg3)) shapeCasts_S4096_S1x4096 := by
  show StableHlo.after hostOps0 (fun b => m (c, b)) (Proc.devRef .tc main_call0_v4) = _
  after_results
  rfl
theorem arr4_eq (c : Dev nD) : arr4 m c = shapeCast S1x1024 (m ((c : Thread nD τ).loc main_arg4)) shapeCasts_S1024_S1x1024 := by
  show StableHlo.after hostOps0 (fun b => m (c, b)) (Proc.devRef .tc main_call0_v2) = _
  after_results
  rfl
theorem arr5_eq (c : Dev nD) : arr5 m c = shapeCast S1x1024 (m ((c : Thread nD τ).loc main_arg5)) shapeCasts_S1024_S1x1024 := by
  show StableHlo.after hostOps0 (fun b => m (c, b)) (Proc.devRef .tc main_call0_v3) = _
  after_results
  rfl

/-! ## Reshapes keep the row-major position -/

/-- A flattened input at (2048·b + m, n) is the input at (b, m, n). -/
theorem flat_apply (x : S4x2048x1024.Idx → EReal) (b : Fin 4) (mm : Fin 2048) (n : Fin 1024) (r : Fin 8192) (hr : r.val = b.val * 2048 + mm.val) :
    shapeCast S8192x1024 x shapeCasts_S4x2048x1024_S8192x1024 (ix2 r n) = x (ix3 b mm n) :=
  shapeCast_apply x _ (ix2 r n) (ix3 b mm n) (by
    rw [Shape.rowMajor_val_three, Shape.rowMajor_val_two]
    show ((b.val * 2048 + mm.val) * 1024 + n.val) = r.val * 1024 + n.val
    rw [hr])

/-- A row vector written as one row of a matrix is read at its column. -/
theorem row1024_apply (x : S1024.Idx → EReal) (n : Fin 1024) :
    shapeCast S1x1024 x shapeCasts_S1024_S1x1024 (ix2 (0 : Fin 1) n) = x (ix1 n) :=
  shapeCast_apply x _ (ix2 (0 : Fin 1) n) (ix1 n) (by
    rw [Shape.rowMajor_val_one, Shape.rowMajor_val_two]
    show n.val = 0 * 1024 + n.val
    omega)
theorem row4096_apply (x : S4096.Idx → EReal) (d : Fin 4096) :
    shapeCast S1x4096 x shapeCasts_S4096_S1x4096 (ix2 (0 : Fin 1) d) = x (ix1 d) :=
  shapeCast_apply x _ (ix2 (0 : Fin 1) d) (ix1 d) (by
    rw [Shape.rowMajor_val_one, Shape.rowMajor_val_two]
    show d.val = 0 * 4096 + d.val
    omega)

/-- Flattened row 2048·b + m of the sum of the flattened inputs is row (b, m) of the sum of the inputs. -/
theorem frow_flat (x1 x2 : S4x2048x1024.Idx → EReal) (b : Fin 4) (mm : Fin 2048) (r : Fin 8192) (hr : r.val = b.val * 2048 + mm.val) :
    frow (shapeCast S8192x1024 x1 shapeCasts_S4x2048x1024_S8192x1024) (shapeCast S8192x1024 x2 shapeCasts_S4x2048x1024_S8192x1024) r
      = row x1 x2 b mm := by
  funext n
  show shapeCast S8192x1024 x1 _ (ix2 r n) + shapeCast S8192x1024 x2 _ (ix2 r n) = x1 (ix3 b mm n) + x2 (ix3 b mm n)
  rw [flat_apply x1 b mm n r hr, flat_apply x2 b mm n r hr]

/-- The row of a flattened index that a [4, 2048, …] index is reshaped from. -/
def flatRow (b : Fin 4) (mm : Fin 2048) : Fin 8192 := ⟨b.val * 2048 + mm.val, by have := b.isLt; have := mm.isLt; omega⟩

/-- The sum array, given its leading axes back, is the sum of the inputs. -/
theorem sum_unflat (x1 x2 : S4x2048x1024.Idx → EReal) :
    shapeCast S4x2048x1024 (sumArr (shapeCast S8192x1024 x1 shapeCasts_S4x2048x1024_S8192x1024) (shapeCast S8192x1024 x2 shapeCasts_S4x2048x1024_S8192x1024))
        shapeCasts_S8192x1024_S4x2048x1024 = outAdd x1 x2 := by
  funext i
  obtain ⟨b, mm, n, rfl⟩ : ∃ (b : Fin 4) (mm : Fin 2048) (n : Fin 1024), i = ix3 b mm n := ⟨i 0, i 1, i 2, eq_ix3 i⟩
  rw [shapeCast_apply _ _ (ix3 b mm n) (ix2 (flatRow b mm) n) (by
    rw [Shape.rowMajor_val_three, Shape.rowMajor_val_two]; rfl)]
  show shapeCast S8192x1024 x1 _ (ix2 (flatRow b mm) n) + shapeCast S8192x1024 x2 _ (ix2 (flatRow b mm) n) = x1 (ix3 b mm n) + x2 (ix3 b mm n)
  rw [flat_apply x1 b mm n _ rfl, flat_apply x2 b mm n _ rfl]

/-- The mean column, given its [4, 2048] shape, is each row's mean. -/
theorem mean_unflat (x1 x2 : S4x2048x1024.Idx → EReal) :
    shapeCast S4x2048 (meanArr (shapeCast S8192x1024 x1 shapeCasts_S4x2048x1024_S8192x1024) (shapeCast S8192x1024 x2 shapeCasts_S4x2048x1024_S8192x1024))
        shapeCasts_S8192x1_S4x2048 = outMean x1 x2 := by
  funext i
  obtain ⟨b, mm, rfl⟩ : ∃ (b : Fin 4) (mm : Fin 2048), i = ix2 b mm := ⟨i 0, i 1, eq_ix2 i⟩
  rw [shapeCast_apply _ _ (ix2 b mm) (ix2 (flatRow b mm) (0 : Fin 1)) (by
    rw [Shape.rowMajor_val_two, Shape.rowMajor_val_two]; show (b.val * 2048 + mm.val) * 1 + 0 = b.val * 2048 + mm.val; omega)]
  show mean (frow _ _ (flatRow b mm)) = mean (row x1 x2 b mm)
  rw [frow_flat x1 x2 b mm _ rfl]

/-- The reciprocal-deviation column, given its [4, 2048] shape, is each row's reciprocal standard deviation. -/
theorem rstd_unflat (x1 x2 : S4x2048x1024.Idx → EReal) :
    shapeCast S4x2048 (rstdArr (shapeCast S8192x1024 x1 shapeCasts_S4x2048x1024_S8192x1024) (shapeCast S8192x1024 x2 shapeCasts_S4x2048x1024_S8192x1024))
        shapeCasts_S8192x1_S4x2048 = outRstd x1 x2 := by
  funext i
  obtain ⟨b, mm, rfl⟩ : ∃ (b : Fin 4) (mm : Fin 2048), i = ix2 b mm := ⟨i 0, i 1, eq_ix2 i⟩
  rw [shapeCast_apply _ _ (ix2 b mm) (ix2 (flatRow b mm) (0 : Fin 1)) (by
    rw [Shape.rowMajor_val_two, Shape.rowMajor_val_two]; show (b.val * 2048 + mm.val) * 1 + 0 = b.val * 2048 + mm.val; omega)]
  show rstd (frow _ _ (flatRow b mm)) = rstd (row x1 x2 b mm)
  rw [frow_flat x1 x2 b mm _ rfl]

/-- The projection array, given its leading axes back, is each normalised row against each weight column plus the bias. -/
theorem proj_unflat (x1 x2 : S4x2048x1024.Idx → EReal) (w : S1024x4096.Idx → EReal) (bias : S4096.Idx → EReal) (g be : S1024.Idx → EReal) :
    shapeCast S4x2048x4096 (projArr (shapeCast S8192x1024 x1 shapeCasts_S4x2048x1024_S8192x1024) (shapeCast S8192x1024 x2 shapeCasts_S4x2048x1024_S8192x1024)
        w (shapeCast S1x4096 bias shapeCasts_S4096_S1x4096) (shapeCast S1x1024 g shapeCasts_S1024_S1x1024) (shapeCast S1x1024 be shapeCasts_S1024_S1x1024))
        shapeCasts_S8192x4096_S4x2048x4096 = outProj x1 x2 w bias g be := by
  funext i
  obtain ⟨b, mm, d, rfl⟩ : ∃ (b : Fin 4) (mm : Fin 2048) (d : Fin 4096), i = ix3 b mm d := ⟨i 0, i 1, i 2, eq_ix3 i⟩
  rw [shapeCast_apply _ _ (ix3 b mm d) (ix2 (flatRow b mm) d) (by
    rw [Shape.rowMajor_val_three, Shape.rowMajor_val_two]; rfl)]
  show proj (frow _ _ (flatRow b mm)) (fun n => shapeCast S1x1024 g _ (ix2 (0 : Fin 1) n)) (fun n => shapeCast S1x1024 be _ (ix2 (0 : Fin 1) n))
      (fun k => w (ix2 k d)) (shapeCast S1x4096 bias _ (ix2 (0 : Fin 1) d))
    = proj (row x1 x2 b mm) (fun n => g (ix1 n)) (fun n => be (ix1 n)) (fun k => w (ix2 k d)) (bias (ix1 d))
  rw [frow_flat x1 x2 b mm _ rfl, row4096_apply]
  simp only [row1024_apply]

/-! ## The results after the host's last reshapes -/

theorem tail0 (c : Dev nD) : Pipeline.afterTail₀ cfgs (dats m) 0 (V0 m) [hostOps1] c main_v0_0
    = outAdd (m ((c : Thread nD τ).loc main_arg0)) (m ((c : Thread nD τ).loc main_arg1)) := by
  unfold Pipeline.afterTail₀
  show StableHlo.after hostOps1 _ (Proc.devRef .tc main_v0_0) = _
  after_results
  show shapeCast S4x2048x1024 (Pipeline.withArrays spec0 c (V0 m c) (fun w => (dats m 0 c).arrAt w cfg0.N) (Proc.devRef .tc (Pipeline.arrRef spec0 6))) shapeCasts_S8192x1024_S4x2048x1024 = _
  rw [Pipeline.withArrays_arr spec0 launch0.win.arr_inj c _ _ 6, final6, arr0_eq, arr1_eq]
  exact sum_unflat _ _

theorem tail1 (c : Dev nD) : Pipeline.afterTail₀ cfgs (dats m) 0 (V0 m) [hostOps1] c main_v0_1
    = outMean (m ((c : Thread nD τ).loc main_arg0)) (m ((c : Thread nD τ).loc main_arg1)) := by
  unfold Pipeline.afterTail₀
  show StableHlo.after hostOps1 _ (Proc.devRef .tc main_v0_1) = _
  after_results
  show shapeCast S4x2048 (Pipeline.withArrays spec0 c (V0 m c) (fun w => (dats m 0 c).arrAt w cfg0.N) (Proc.devRef .tc (Pipeline.arrRef spec0 7))) shapeCasts_S8192x1_S4x2048 = _
  rw [Pipeline.withArrays_arr spec0 launch0.win.arr_inj c _ _ 7, final7, arr0_eq, arr1_eq]
  exact mean_unflat _ _

theorem tail2 (c : Dev nD) : Pipeline.afterTail₀ cfgs (dats m) 0 (V0 m) [hostOps1] c main_v0_2
    = outRstd (m ((c : Thread nD τ).loc main_arg0)) (m ((c : Thread nD τ).loc main_arg1)) := by
  unfold Pipeline.afterTail₀
  show StableHlo.after hostOps1 _ (Proc.devRef .tc main_v0_2) = _
  after_results
  show shapeCast S4x2048 (Pipeline.withArrays spec0 c (V0 m c) (fun w => (dats m 0 c).arrAt w cfg0.N) (Proc.devRef .tc (Pipeline.arrRef spec0 8))) shapeCasts_S8192x1_S4x2048 = _
  rw [Pipeline.withArrays_arr spec0 launch0.win.arr_inj c _ _ 8, final8, arr0_eq, arr1_eq]
  exact rstd_unflat _ _

theorem tail3 (c : Dev nD) : Pipeline.afterTail₀ cfgs (dats m) 0 (V0 m) [hostOps1] c main_v0_3
    = outProj (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Pipeline.afterTail₀
  show StableHlo.after hostOps1 _ (Proc.devRef .tc main_v0_3) = _
  after_results
  show shapeCast S4x2048x4096 (Pipeline.withArrays spec0 c (V0 m c) (fun w => (dats m 0 c).arrAt w cfg0.N) (Proc.devRef .tc (Pipeline.arrRef spec0 9))) shapeCasts_S8192x4096_S4x2048x4096 = _
  rw [Pipeline.withArrays_arr spec0 launch0.win.arr_inj c _ _ 9, final9, arr0_eq, arr1_eq, arr2_eq, arr3_eq, arr4_eq, arr5_eq]
  exact proj_unflat _ _ _ _ _ _

/-! ## The run -/

/-- Every weakly fair execution of the idealized kernel's @main terminates with the four results at the specification's functions of
    the arguments, and the arguments unchanged. -/
theorem run : θ_run defs (onTc (τ := τ) (main (F := Ideal))) ⟨m, fun _ => 0, ρ⟩ fun r => ∀ c : Dev nD,
      r.2.mem ((c.tc : Thread nD τ).loc main_v0_0) = outAdd (m ((c : Thread nD τ).loc main_arg0)) (m ((c : Thread nD τ).loc main_arg1))
      ∧ r.2.mem ((c.tc : Thread nD τ).loc main_v0_1) = outMean (m ((c : Thread nD τ).loc main_arg0)) (m ((c : Thread nD τ).loc main_arg1))
      ∧ r.2.mem ((c.tc : Thread nD τ).loc main_v0_2) = outRstd (m ((c : Thread nD τ).loc main_arg0)) (m ((c : Thread nD τ).loc main_arg1))
      ∧ r.2.mem ((c.tc : Thread nD τ).loc main_v0_3) = outProj (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_v0_2 (Pipeline.mem_restRefs_of main_v0_2 (by decide) (by decide))).trans (tail2 m c),
      ((h c).2 main_v0_3 (Pipeline.mem_restRefs_of main_v0_3 (by decide) (by decide))).trans (tail3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Results

end
-- ==== Proof.lean ====
/-
  Add, layer normalisation and projection, fused in one kernel, against the same computation written with jnp.

  Both programs take x1, x2 : [4, 2048, 1024], w : [1024, 4096], a bias : [4096] and γ, β : [1024], and return
  x1 + x2, each row's mean, each row's reciprocal standard deviation rsqrt(variance + ε), and the normalised rows
  ((x1 + x2 − mean) · rstd · γ + β) multiplied into w plus the bias. The kernel flattens the leading axes to 8192 rows and
  walks a 32 × 4 grid of 256-row by 1024-column tiles; the row statistics are recomputed at each of the four column
  tiles and written back once per row block. Over the extended reals the two programs are the same function, operation
  for operation: the kernel's lane sum and the host's reduction from 0 are the sum over the row, the kernel's matrix
  product into a zero accumulator (its operands truncated to bf16, which is the identity here) and the host's
  dot_general are the sum over the contracted axis, and both divide by the same word 1024 and add the same word ε.
  Nothing is cancelled or distributed, so the finiteness of the inputs is never used.

  The specification is RowNorm; RefRows reads the reference's run as the specification; BlockRows reads the kernel
  body's stored values as the specification's row functions of a tile's rows; Blocks joins the tiles into the four result
  arrays; Results carries them through the host's reshapes to the kernel's four results.
-/
import proofs.«146103_j36558761623582_1_alg».proof.Defs
import proofs.«146103_j36558761623582_1_alg».proof.Proof.Gen.Kernel
import proofs.«146103_j36558761623582_1_alg».proof.Proof.Gen.Kernel.Skeleton
import proofs.«146103_j36558761623582_1_alg».proof.Proof.Gen.Kernel.Launch
import proofs.«146103_j36558761623582_1_alg».proof.Proof.Gen.Kernel.Points
import proofs.«146103_j36558761623582_1_alg».proof.Proof.Gen.Kernel.Frame
import proofs.«146103_j36558761623582_1_alg».proof.Proof.Gen.KernelIdeal
import proofs.«146103_j36558761623582_1_alg».proof.Proof.Gen.KernelIdeal.Skeleton
import proofs.«146103_j36558761623582_1_alg».proof.Proof.Gen.KernelIdeal.Launch
import proofs.«146103_j36558761623582_1_alg».proof.Proof.Gen.KernelIdeal.Points
import proofs.«146103_j36558761623582_1_alg».proof.Proof.Gen.KernelIdeal.Frame
import proofs.«146103_j36558761623582_1_alg».proof.Proof.Gen.ReferenceIdeal
import proofs.«146103_j36558761623582_1_alg».proof.Proof.Gen.Pre_finite_inputs
import proofs.«146103_j36558761623582_1_alg».proof.Proof.Gen.ReferenceIdeal.Run
import proofs.«146103_j36558761623582_1_alg».proof.Proof.Gen.ReferenceIdeal.Read
import proofs.«146103_j36558761623582_1_alg».proof.Proof.RefRows
import proofs.«146103_j36558761623582_1_alg».proof.Proof.Results
import Idealize.ShloMosaic.Adequacy
import Idealize.ShloMosaic.Init

noncomputable section

namespace Cert.Proof

open Idealize.ShloMosaic Idealize.ShloMosaic.TcCoe Idealize.SL.Sem Cert.RowNorm

/-- The kernel as printed terminates, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the four results forgotten. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories that agree on the six arguments both programs end with the sum, the row means, the rows' reciprocal standard
    deviations and the projection of the normalised rows: the specification's four functions of the arguments. -/
theorem algebraic : Cert.algebraic_KernelIdeal_ReferenceIdeal := by
  intro m ρ m' ρ' _ hagree
  refine ⟨fun c => outAdd (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => outMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => outRstd (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => outProj (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Results.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5⟩ := hagree c
  refine ⟨h0.trans ?_, h1.trans ?_, h2.trans ?_, h3.trans ?_, hargs⟩
  · refine (Cert.ReferenceIdeal.Read.val_main_v0_eq _ _).trans ?_
    rw [Cert.ReferenceIdeal.RefRows.add_eq, a0, a1]
  · refine (Cert.ReferenceIdeal.Read.val_main_v3_eq _ _).trans ?_
    rw [Cert.ReferenceIdeal.RefRows.mean_eq, a0, a1]
  · refine (Cert.ReferenceIdeal.Read.val_main_v13_eq _ _).trans ?_
    rw [Cert.ReferenceIdeal.RefRows.rstd_eq, a0, a1]
  · refine (Cert.ReferenceIdeal.Read.val_main_v29_eq _ _ _ _ _ _).trans ?_
    rw [Cert.ReferenceIdeal.RefRows.proj_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
